-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S64x32 .f32) (main_arg7 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) (main_arg5 : FVec F S64x32 .f32) (main_arg6 : FVec F S64x32 .f32) (main_arg7 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S10000x64 : Shape := ⟨2, ![10000, 64]⟩
abbrev S1x32 : Shape := ⟨2, ![1, 32]⟩
abbrev S100000x32 : Shape := ⟨2, ![100000, 32]⟩
abbrev S10000x32 : Shape := ⟨2, ![10000, 32]⟩

abbrev nBuf : Space → Nat
  | .hbm => 66
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S_, .f32⟩
  | .hbm, ⟨53, _⟩ => ⟨S1600000, .f32⟩
  | .hbm, ⟨54, _⟩ => ⟨S_, .f32⟩
  | .hbm, ⟨55, _⟩ => ⟨S100000, .f32⟩
  | .hbm, ⟨56, _⟩ => ⟨S1600000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x64, .f32⟩
  | .hbm, ⟨63, _⟩ => ⟨S100000x64, .f32⟩
  | .hbm, ⟨64, _⟩ => ⟨S1x32, .f32⟩
  | .hbm, ⟨65, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x32, .f32⟩
  | .local _ .vmem, ⟨14, _⟩ => ⟨S64x32, .f32⟩
  | .local _ .vmem, ⟨15, _⟩ => ⟨S1x32, .f32⟩
  | .local _ .vmem, ⟨16, _⟩ => ⟨S10000x32, .f32⟩
  | .local _ .vmem, ⟨17, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_v22) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S1x1600000, .i32⟩
  | .hbm, ⟨47, _⟩ => ⟨S1600000, .i32⟩
  | .hbm, ⟨48, _⟩ => ⟨S1x1600000, .i32⟩
  | .hbm, ⟨49, _⟩ => ⟨S1600000, .i32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S100000x32, .f32⟩
  | .hbm, ⟨76, _⟩ => ⟨S100000x32, .f32⟩
  | .hbm, ⟨77, _⟩ => ⟨S100000x32, .f32⟩
  | .hbm, ⟨78, _⟩ => ⟨S1x32, .f32⟩
  | .hbm, ⟨79, _⟩ => ⟨S100000x32, .f32⟩
  | .hbm, ⟨80, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.HostGlue.lean ====
/-
  The host side of the kernel program, read at the two boundaries where a kernel region is entered.

  Before the first region the host computes the mean aggregation of the node features `x` over the edge list
  (a gather of the source rows, a scatter-add onto the destination rows, and a division by the clamped in-degree)
  and reshapes the bias to one row; between the regions it computes the same aggregation of the hidden features
  the first region wrote, from the source and destination vectors it already has. The reference program applies
  the very same host operations, so each aggregation is carried as ONE opaque function and never opened: the first
  is the reference's own stage `val_main_v22`; the second, `mean2`, is the reference's stages with the hidden
  features as a variable. Every other array a region reads is an argument of the program, unchanged.
-/
import proofs.«126133_j64725157151033_1_alg».proof.Proof.Gen.KernelIdeal.Frame
import proofs.«126133_j64725157151033_1_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.StableHlo

namespace Cert.Glue

variable {F : FTy → Type} [FloatOps F]

/-! ## The second layer's mean aggregation as a function of the hidden features -/

section Mean2
open Cert.ReferenceIdeal Cert.ReferenceIdeal.Read

/-- The mean aggregation over the edge list `e` of node features `h`: the rows of `h` at the (wrapped) source
    indices summed onto the destination rows, divided by the in-degree clamped at one from below. -/
def mean2 (h : (⟨S100000x64, .f32⟩ : BufTy).Contents (Elt F)) (e : (⟨S2x1600000, .i32⟩ : BufTy).Contents (Elt F)) :
    (⟨S100000x64, .f32⟩ : BufTy).Contents (Elt F) :=
  Host.divf
    (Host.scatterAdd scatter_S100000x64_S1600000x1_S1600000x64_1_0_0_1 (val_main_v41 (F := F)) (val_main_v42 (F := F) e)
      (Host.gather gather_S100000x64_S1600000x1_S1600000x64_1_0_n_n_0_1_164 h (val_main_v39 (F := F) e)))
    (val_main_v51 (F := F) e)

/-- The reference's second aggregation is `mean2` of its hidden features. -/
theorem val_main_v52_eq (x0 : (⟨S100000x64, .f32⟩ : BufTy).Contents (Elt F)) (x1 : (⟨S2x1600000, .i32⟩ : BufTy).Contents (Elt F))
    (x2 x3 : (⟨S64x64, .f32⟩ : BufTy).Contents (Elt F)) (x4 : (⟨S64, .f32⟩ : BufTy).Contents (Elt F)) :
    val_main_v52 (F := F) x0 x1 x2 x3 x4 = mean2 (val_main_v29 (F := F) x0 x1 x2 x3 x4) x1 := rfl

end Mean2

/-! ## A bias reshaped to one row, read along that row -/

theorem row_of_reshape {n : Nat} {α : Type} (v : (⟨1, ![n]⟩ : Shape).Idx → α)
    (h : (⟨1, ![n]⟩ : Shape).ShapeCasts ⟨1 + 1, Matrix.vecCons 1 ![n]⟩) (j : Fin n) :
    shapeCast ⟨1 + 1, Matrix.vecCons 1 ![n]⟩ v h (ValueIdx.ix2 (n0 := 1) (n1 := n) 0 j) = v (ValueIdx.ix1 j) := by
  rw [shapeCast_addUnit_apply]
  refine congrArg v (funext fun a => ?_)
  match a with
  | ⟨0, _⟩ => rfl

open Cert.KernelIdeal Cert.KernelIdeal.Gen

variable (m : (ℓ : Loc nD τ sig) → Buf (Elt F) ℓ) (ρ : Dev nD → PrngReg)

/-! ## At the first region's entry -/

set_option maxHeartbeats 2000000 in
/-- The aggregated window is the reference's first mean aggregation of the arguments `x` and the edge list. -/
theorem entry0_mean (c : Dev nD) :
    StableHlo.after hostOps0 (W0 m ρ c) (Proc.devRef .tc main_v22)
      = Cert.ReferenceIdeal.Read.val_main_v22 (F := F) (m ((c.tc : Thread nD τ).loc main_arg0)) (m ((c.tc : Thread nD τ).loc main_arg1)) := by
  after_results
  rfl

theorem entry0_arg0 (c : Dev nD) : StableHlo.after hostOps0 (W0 m ρ c) (Proc.devRef .tc main_arg0) = m ((c.tc : Thread nD τ).loc main_arg0) := by
  after_results
theorem entry0_arg1 (c : Dev nD) : StableHlo.after hostOps0 (W0 m ρ c) (Proc.devRef .tc main_arg1) = m ((c.tc : Thread nD τ).loc main_arg1) := by
  after_results
theorem entry0_arg2 (c : Dev nD) : StableHlo.after hostOps0 (W0 m ρ c) (Proc.devRef .tc main_arg2) = m ((c.tc : Thread nD τ).loc main_arg2) := by
  after_results
theorem entry0_arg3 (c : Dev nD) : StableHlo.after hostOps0 (W0 m ρ c) (Proc.devRef .tc main_arg3) = m ((c.tc : Thread nD τ).loc main_arg3) := by
  after_results
theorem entry0_arg5 (c : Dev nD) : StableHlo.after hostOps0 (W0 m ρ c) (Proc.devRef .tc main_arg5) = m ((c.tc : Thread nD τ).loc main_arg5) := by
  after_results
theorem entry0_arg6 (c : Dev nD) : StableHlo.after hostOps0 (W0 m ρ c) (Proc.devRef .tc main_arg6) = m ((c.tc : Thread nD τ).loc main_arg6) := by
  after_results
theorem entry0_arg7 (c : Dev nD) : StableHlo.after hostOps0 (W0 m ρ c) (Proc.devRef .tc main_arg7) = m ((c.tc : Thread nD τ).loc main_arg7) := by
  after_results

/-- The first bias window is the bias argument reshaped to one row. -/
theorem entry0_bias (c : Dev nD) :
    (StableHlo.after hostOps0 (W0 m ρ c) (Proc.devRef .tc main_v23) : S1x64.Idx → Elt F .f32)
      = shapeCast S1x64 (m ((c.tc : Thread nD τ).loc main_arg4) : S64.Idx → Elt F .f32) shapeCasts_S64_S1x64 := by
  after_results
  rfl

/-! ## Across the first region, and at the second region's entry -/

/-- The first region writes its output array and nothing else: the source vector the first stretch computed is still
    the edge list's first row, as the reference reads it again for the second layer. -/
theorem exit0_src (c : Dev nD) :
    W2 m ρ c (Proc.devRef .tc main_v1) = Cert.ReferenceIdeal.Read.val_main_v31 (F := F) (m ((c.tc : Thread nD τ).loc main_arg1)) :=
  (W2_of_ne m ρ c main_v1 (by decide)).trans (by
    show StableHlo.after hostOps0 (W0 m ρ c) (Proc.devRef .tc main_v1) = _
    after_results
    rfl)

/-- Likewise the destination vector is the edge list's second row. -/
theorem exit0_dst (c : Dev nD) :
    W2 m ρ c (Proc.devRef .tc main_v3) = Cert.ReferenceIdeal.Read.val_main_v33 (F := F) (m ((c.tc : Thread nD τ).loc main_arg1)) :=
  (W2_of_ne m ρ c main_v3 (by decide)).trans (by
    show StableHlo.after hostOps0 (W0 m ρ c) (Proc.devRef .tc main_v3) = _
    after_results
    rfl)

theorem exit0_arg5 (c : Dev nD) : W2 m ρ c (Proc.devRef .tc main_arg5) = m ((c.tc : Thread nD τ).loc main_arg5) :=
  (W2_of_ne m ρ c main_arg5 (by decide)).trans (entry0_arg5 m ρ c)
theorem exit0_arg6 (c : Dev nD) : W2 m ρ c (Proc.devRef .tc main_arg6) = m ((c.tc : Thread nD τ).loc main_arg6) :=
  (W2_of_ne m ρ c main_arg6 (by decide)).trans (entry0_arg6 m ρ c)
theorem exit0_arg7 (c : Dev nD) : W2 m ρ c (Proc.devRef .tc main_arg7) = m ((c.tc : Thread nD τ).loc main_arg7) :=
  (W2_of_ne m ρ c main_arg7 (by decide)).trans (entry0_arg7 m ρ c)

set_option maxHeartbeats 4000000 in
/-- The second region's aggregated window is `mean2` of what the first region wrote and the edge list. -/
theorem entry1_mean (c : Dev nD) :
    StableHlo.after hostOps1 (W2 m ρ c) (Proc.devRef .tc main_v43)
      = mean2 (F := F) (W2 m ρ c (Proc.devRef .tc main_v24)) (m ((c.tc : Thread nD τ).loc main_arg1)) := by
  after_results
  rw [exit0_src m ρ c, exit0_dst m ρ c]
  rfl

/-- The second region reads the hidden features where the first wrote them. -/
theorem entry1_hidden (c : Dev nD) :
    StableHlo.after hostOps1 (W2 m ρ c) (Proc.devRef .tc main_v24) = W2 m ρ c (Proc.devRef .tc main_v24) := by
  after_results

theorem entry1_arg5 (c : Dev nD) : StableHlo.after hostOps1 (W2 m ρ c) (Proc.devRef .tc main_arg5) = m ((c.tc : Thread nD τ).loc main_arg5) := by
  after_results
  exact exit0_arg5 m ρ c
theorem entry1_arg6 (c : Dev nD) : StableHlo.after hostOps1 (W2 m ρ c) (Proc.devRef .tc main_arg6) = m ((c.tc : Thread nD τ).loc main_arg6) := by
  after_results
  exact exit0_arg6 m ρ c

/-- The second bias window is the second bias argument reshaped to one row. -/
theorem entry1_bias (c : Dev nD) :
    (StableHlo.after hostOps1 (W2 m ρ c) (Proc.devRef .tc main_v44) : S1x32.Idx → Elt F .f32)
      = shapeCast S1x32 (m ((c.tc : Thread nD τ).loc main_arg7) : S32.Idx → Elt F .f32) shapeCasts_S32_S1x32 := by
  after_results
  rw [exit0_arg7 m ρ c]
  rfl

end Cert.Glue

end
-- ==== Proof.Spec.lean ====
/-
  The mathematics both programs compute, stated once over whole arrays and no program.

  A GraphSAGE layer takes the mean aggregation `M` of the node features and the features `X` themselves,
  both of 100000 rows and 64 columns, and maps row `r`, column `j` to
      (Σ_k M[r,k] · Wn[k,j])  +  (Σ_k X[r,k] · Ws[k,j])  +  b[j]
  over the extended reals, the two sums added first and the bias last. The hidden layer (64 columns) clamps
  that at zero from below; the output layer (32 columns) does not. Row `r` of the result depends on row `r`
  of `M` and of `X` only, which is why a kernel may compute it one block of rows at a time.
-/
import Idealize.ShloMosaic.PureOps.Ideal
import Idealize.ShloMosaic.Lib.ValueIdx

noncomputable section

namespace Sage

open Idealize.ShloMosaic Idealize.ShloMosaic.ValueIdx

/-- The shapes of the node arrays and of the weights. -/
abbrev N64 : Shape := ⟨2, ![100000, 64]⟩
abbrev N32 : Shape := ⟨2, ![100000, 32]⟩
abbrev W64 : Shape := ⟨2, ![64, 64]⟩
abbrev W32 : Shape := ⟨2, ![64, 32]⟩

/-- The hidden layer: `max (M·Wn + X·Ws + b) 0`, entry by entry. -/
def hidden (M X : N64.Idx → EReal) (Wn Ws : W64.Idx → EReal) (b : Fin 64 → EReal) : N64.Idx → EReal :=
  fun i => max (((∑ k : Fin 64, M (ix2 (n0 := 100000) (n1 := 64) (i 0) k) * Wn (ix2 (n0 := 64) (n1 := 64) k (i 1)))
      + (∑ k : Fin 64, X (ix2 (n0 := 100000) (n1 := 64) (i 0) k) * Ws (ix2 (n0 := 64) (n1 := 64) k (i 1)))) + b (i 1)) 0

/-- The output layer: `M·Wn + X·Ws + b`, entry by entry. -/
def output (M X : N64.Idx → EReal) (Wn Ws : W32.Idx → EReal) (b : Fin 32 → EReal) : N32.Idx → EReal :=
  fun i => ((∑ k : Fin 64, M (ix2 (n0 := 100000) (n1 := 64) (i 0) k) * Wn (ix2 (n0 := 64) (n1 := 32) k (i 1)))
      + (∑ k : Fin 64, X (ix2 (n0 := 100000) (n1 := 64) (i 0) k) * Ws (ix2 (n0 := 64) (n1 := 32) k (i 1)))) + b (i 1)

end Sage

end
-- ==== Proof.KernelBlocks.lean ====
import proofs.«126133_j64725157151033_1_alg».proof.Proof.Gen.KernelIdeal.Frame
import proofs.«126133_j64725157151033_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (V : (c : Dev nD) → (b : Ref sig .tc) → Buf (Elt Ideal) ((c : Thread nD τ).loc b))

/-! # The first region: the hidden layer, block by block

The first call walks ten points; point t holds rows 10000·t … 10000·t + 9999 of the aggregated features and of the
node features, both whole 64×64 weights and the bias row, and stores into the same rows of the result
    max ((M·Wn + X·Ws) + b, 0),
each product a sum over the 64 shared columns, accumulated from zero; the narrowing of the operands to a shorter
float format changes nothing over the extended reals. Row r of the result depends on row r of M and of X only, so the
block a point writes back is that block of the whole-array hidden layer, and the ten blocks tile the 100000 rows. -/

/-- The zero offsets of a whole-buffer access, as the constant function. -/
theorem zero_offsets : (![0, 0] : Fin 2 → Nat) = fun _ => 0 := funext fun a => by fin_cases a <;> rfl

/-! ## The 64-column product: operand indices of the contraction -/

theorem lhs_hidden_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_hidden_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_hidden_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_hidden_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block of rows times a 64×64 weight, accumulated into zero: entry (p, q) is the row-by-column sum. -/
theorem rows_times_w64 (l : FVec Ideal S10000x64 .bf16) (r : FVec Ideal S64x64 .bf16) (p : Fin 10000) (q : Fin 64) :
    matmul dot_S10000x64_S64x64_S10000x64_1_0_0_1_n_n none l r (constant S10000x64 .f32 0x00000000#32) (ix2 p q)
      = ∑ k : Fin 64, l (ix2 p k) * r (ix2 k q) := by
  show FloatOps.matmul dot_S10000x64_S64x64_S10000x64_1_0_0_1_n_n none l r (constant S10000x64 .f32 0x00000000#32) (ix2 p q) = _
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_hidden_0 _ _
    | ⟨1, _⟩ => exact (lhs_hidden_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_hidden_0 _ _).trans hk
    | ⟨1, _⟩ => exact rhs_hidden_1 _ _)
  rw [el, er]

/-- The one-row bias laid along every row of the block. -/
theorem bias64_apply (b : Vec Ideal S1x64 .f32) (p : Fin 10000) (q : Fin 64) :
    broadcastTo S10000x64 (shapeCast S1x64 b shapeCasts_S1x64_S1x64) broadcasts_S1x64_S10000x64 (ix2 p q) = b (ix2 0 q) := by
  rw [shapeCast_self]
  refine broadcastTo_apply b broadcasts_S1x64_S10000x64 (ix2 p q) (ix2 0 q) fun a => ?_
  match a with
  | ⟨0, _⟩ => show (0 : Nat) = if (1 : Nat) = 1 then 0 else _; rw [if_pos rfl]
  | ⟨1, _⟩ => show q.val = if (64 : Nat) = 1 then 0 else _; rw [if_neg (by decide)]; rfl

/-- The hidden layer's block: entry (p, q) of what the body stores. -/
theorem hidden_block_apply (x0 x1 : Vec Ideal S10000x64 .f32) (x2 x3 : Vec Ideal S64x64 .f32) (x4 : Vec Ideal S1x64 .f32)
    (p : Fin 10000) (q : Fin 64) :
    k0_pay1 x0 x1 x2 x3 x4 (ix2 p q)
      = max (((∑ k : Fin 64, x0 (ix2 p k) * x2 (ix2 k q)) + (∑ k : Fin 64, x1 (ix2 p k) * x3 (ix2 k q))) + x4 (ix2 0 q)) 0 := by
  unfold k0_pay1
  rw [maximumf_apply, addf_apply, addf_apply, broadcast_apply, rows_times_w64, rows_times_w64, bias64_apply, shapeCast_self]
  exact congrArg (max _) Ideal.ofBits_zero_f32

/-- The hidden layer at an index whose row is r and whose column is q. -/
theorem hidden_at (M X : Sage.N64.Idx → EReal) (Wn Ws : Sage.W64.Idx → EReal) (b : Fin 64 → EReal)
    (i : Sage.N64.Idx) (r : Fin 100000) (q : Fin 64) (h0 : (i 0).val = r.val) (h1 : (i 1).val = q.val) :
    Sage.hidden M X Wn Ws b i
      = max (((∑ k : Fin 64, M (ix2 r k) * Wn (ix2 k q)) + (∑ k : Fin 64, X (ix2 r k) * Ws (ix2 k q))) + b q) 0 := by
  have e0 : i 0 = r := Fin.ext h0
  have e1 : i 1 = q := Fin.ext h1
  unfold Sage.hidden
  rw [e0, e1]

/-! ## From row blocks to the array -/

/-- Over the ten grid points: the two node arrays and the result move one block of 10000 rows per point;
    the two weights and the bias are one block each, the same at every point. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block of the aggregated features is row 10000·t + p of the array. -/
theorem agg_block_apply (c : Dev nD) (t : Fin cfg0.N) (p : Fin 10000) (k : Fin 64) (r : Fin 100000)
    (hr : r.val = t.val * 10000 + p.val) :
    (iblk0 V c 0 t : Vec Ideal S10000x64 .f32) (ix2 p k) = (V c main_v22 : S100000x64.Idx → EReal) (ix2 r k) := by
  obtain ⟨e0, e1, -⟩ := block_indices t
  unfold iblk0
  rw [View.read_apply]
  show V c main_v22 _ = V c main_v22 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

/-- Row p of point t's block of the node features is row 10000·t + p of the array. -/
theorem feat_block_apply (c : Dev nD) (t : Fin cfg0.N) (p : Fin 10000) (k : Fin 64) (r : Fin 100000)
    (hr : r.val = t.val * 10000 + p.val) :
    (iblk0 V c 1 t : Vec Ideal S10000x64 .f32) (ix2 p k) = (V c main_arg0 : S100000x64.Idx → EReal) (ix2 r k) := by
  obtain ⟨-, -, e0, e1, -⟩ := block_indices t
  unfold iblk0
  rw [View.read_apply]
  show V c main_arg0 _ = V c main_arg0 _
  congr 1
  funext a
  apply Fin.ext
  match a with
  | ⟨0, _⟩ => show win0_1.index t (0 : Fin 2) * 10000 + 1 * p.val = r.val; rw [e0, hr]; omega
  | ⟨1, _⟩ => show win0_1.index t (1 : Fin 2) * 64 + 1 * k.val = k.val; rw [e1]; omega

/-- The neighbour weight's one block is the whole weight, at every point. -/
theorem wn_block_apply (c : Dev nD) (t : Fin cfg0.N) (k : Fin 64) (q : Fin 64) :
    (iblk0 V c 2 t : Vec Ideal S64x64 .f32) (ix2 k q) = (V c main_arg2 : S64x64.Idx → EReal) (ix2 k q) := by
  obtain ⟨-, -, -, -, e0, e1, -⟩ := block_indices t
  unfold iblk0
  rw [View.read_apply]
  show V c main_arg2 _ = V c main_arg2 _
  congr 1
  funext a
  apply Fin.ext
  match a with
  | ⟨0, _⟩ => show win0_2.index t (0 : Fin 2) * 64 + 1 * k.val = k.val; rw [e0]; omega
  | ⟨1, _⟩ => show win0_2.index t (1 : Fin 2) * 64 + 1 * q.val = q.val; rw [e1]; omega

/-- The self weight's one block is the whole weight, at every point. -/
theorem ws_block_apply (c : Dev nD) (t : Fin cfg0.N) (k : Fin 64) (q : Fin 64) :
    (iblk0 V c 3 t : Vec Ideal S64x64 .f32) (ix2 k q) = (V c main_arg3 : S64x64.Idx → EReal) (ix2 k q) := by
  obtain ⟨-, -, -, -, -, -, e0, e1, -⟩ := block_indices t
  unfold iblk0
  rw [View.read_apply]
  show V c main_arg3 _ = V c main_arg3 _
  congr 1
  funext a
  apply Fin.ext
  match a with
  | ⟨0, _⟩ => show win0_3.index t (0 : Fin 2) * 64 + 1 * k.val = k.val; rw [e0]; omega
  | ⟨1, _⟩ => show win0_3.index t (1 : Fin 2) * 64 + 1 * q.val = q.val; rw [e1]; omega

/-- The bias row's one block is the whole row, at every point. -/
theorem bias_block_apply (c : Dev nD) (t : Fin cfg0.N) (q : Fin 64) :
    (iblk0 V c 4 t : Vec Ideal S1x64 .f32) (ix2 0 q) = (V c main_v23 : S1x64.Idx → EReal) (ix2 0 q) := by
  obtain ⟨-, -, -, -, -, -, -, -, e0, e1, -⟩ := block_indices t
  unfold iblk0
  rw [View.read_apply]
  show V c main_v23 _ = V c main_v23 _
  congr 1
  funext a
  apply Fin.ext
  match a with
  | ⟨0, _⟩ => show win0_4.index t (0 : Fin 2) * 1 + 1 * 0 = 0; rw [e0]
  | ⟨1, _⟩ => show win0_4.index t (1 : Fin 2) * 64 + 1 * q.val = q.val; rw [e1]; omega

/-- WHAT POINT t WRITES BACK is block t of the hidden layer of the arrays as the region finds them. -/
theorem hidden_flushed (c : Dev nD) (t : Fin cfg0.N) :
    (dat0 (F := Ideal) V c).flushed 5 t = ((cfg0.win 5).blk t).view.read (Elt Ideal)
      (Sage.hidden (V c main_v22) (V c main_arg0) (V c main_arg2) (V c main_arg3)
        (fun j => (V c main_v23 : S1x64.Idx → EReal) (ix2 (n0 := 1) (n1 := 64) 0 j))) := by
  show (cfg0.win 5).cut (grid0.coords t) ((dat0 V c).after 5 t) = _
  rw [after0_5]
  unfold out0_5
  rw [View.canon_unit_zero zero_offsets]
  simp only [View.ld_unit_zero (S := S10000x64) zero_offsets, View.ld_unit_zero (S := S64x64) zero_offsets, View.ld_unit_zero (S := S1x64) zero_offsets]
  funext j
  obtain ⟨p, q, rfl⟩ : ∃ (p : Fin 10000) (q : Fin 64), j = ix2 p q := ⟨j 0, j 1, eq_ix2 j⟩
  rw [View.read_apply]
  have hN : cfg0.N = 10 := N_0
  have ht : t.val < cfg0.N := t.isLt
  obtain ⟨-, -, -, -, -, -, -, -, -, -, e0, e1⟩ := block_indices t
  have h0 : ((((cfg0.win 5).blk t).view.emb (ix2 p q)) 0).val = t.val * 10000 + p.val := by
    show win0_5.index t (0 : Fin 2) * 10000 + 1 * p.val = _; rw [e0]; omega
  have h1 : ((((cfg0.win 5).blk t).view.emb (ix2 p q)) 1).val = q.val := by
    show win0_5.index t (1 : Fin 2) * 64 + 1 * q.val = _; rw [e1]; omega
  refine (hidden_block_apply (iblk0 V c 0 t) (iblk0 V c 1 t) (iblk0 V c 2 t) (iblk0 V c 3 t) (iblk0 V c 4 t) p q).trans ?_
  refine Eq.trans ?_ (hidden_at (V c main_v22) (V c main_arg0) (V c main_arg2) (V c main_arg3)
    (fun j => (V c main_v23 : S1x64.Idx → EReal) (ix2 (n0 := 1) (n1 := 64) 0 j))
    (((cfg0.win 5).blk t).view.emb (ix2 p q)) ⟨t.val * 10000 + p.val, by omega⟩ q h0 h1).symm
  exact congrArg₂ max (congrArg₂ (· + ·) (congrArg₂ (· + ·)
      (Finset.sum_congr rfl fun k _ => congrArg₂ (· * ·) (agg_block_apply V c t p k _ rfl) (wn_block_apply V c t k q))
      (Finset.sum_congr rfl fun k _ => congrArg₂ (· * ·) (feat_block_apply V c t p k _ rfl) (ws_block_apply V c t k q)))
      (bias_block_apply V c t q)) rfl

/-- An index of the result array is in point t's block iff each coordinate is in the block's range on its axis. -/
theorem mem_row_block (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v24).slice (win0_5.rect t)).set ↔ _
  rw [View.set_slice_whole, Rect.mem_set_unit]
  exact Iff.rfl

/-- Every row of the result lies in the block of the point that its row number divided by 10000 names, and every
    point writes its block back. -/
theorem rows_covered (i : S100000x64.Idx) :
    ∃ t : Fin cfg0.N, (cfg0.win 5).flush t = true ∧ i ∈ ((cfg0.win 5).blk t).view.set := by
  have hN : cfg0.N = 10 := N_0
  have hi0 : (i 0).val < 100000 := (i 0).isLt
  have hi1 : (i 1).val < 64 := (i 1).isLt
  have hlt : (i 0).val / 10000 < cfg0.N := by omega
  obtain ⟨-, -, -, -, -, -, -, -, -, -, e0, e1⟩ := block_indices ⟨(i 0).val / 10000, hlt⟩
  refine ⟨⟨(i 0).val / 10000, hlt⟩, flush0_5 _, ?_⟩
  rw [mem_row_block]
  intro a
  match a with
  | ⟨0, _⟩ =>
    show win0_5.index ⟨(i 0).val / 10000, hlt⟩ (0 : Fin 2) * 10000 ≤ (i 0).val
      ∧ (i 0).val < win0_5.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win0_5.index ⟨(i 0).val / 10000, hlt⟩ (1 : Fin 2) * 64 ≤ (i 1).val
      ∧ (i 1).val < win0_5.index ⟨(i 0).val / 10000, hlt⟩ (1 : Fin 2) * 64 + 64
    rw [e1]; omega

/-- THE RESULT ARRAY after the first region: the hidden layer of the arrays as the region finds them (every point
    writes back its block of it, and the blocks cover the array). -/
theorem region0_value (c : Dev nD) :
    (dat0 (F := Ideal) V c).arrAt 5 cfg0.N
      = Sage.hidden (V c main_v22) (V c main_arg0) (V c main_arg2) (V c main_arg3)
          (fun j => (V c main_v23 : S1x64.Idx → EReal) (ix2 (n0 := 1) (n1 := 64) 0 j)) := by
  exact (dat0 (F := Ideal) V c).arrAt_eq_of_cover 5 _ (fun t _ => hidden_flushed V c t) rows_covered

end Cert.KernelIdeal.Hand

end
-- ==== Proof.KernelBlocks1.lean ====
import proofs.«126133_j64725157151033_1_alg».proof.Proof.Gen.KernelIdeal.Frame
import proofs.«126133_j64725157151033_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Hand1

open Cert.KernelIdeal Cert.KernelIdeal.Gen Idealize.ShloMosaic.ValueIdx

variable (V : (c : Dev nD) → (b : Ref sig .tc) → Buf (Elt Ideal) ((c : Thread nD τ).loc b))

/-! ## The body's stored value at an index

    Each of the two products contracts the 64 columns of a block of rows with the 64 rows of a weight
    matrix; at the extended reals the accumulator is zero and the narrowing of the operands changes nothing,
    so the stored entry is the sum of the two contractions plus the bias of its column. -/

theorem hz : (![0, 0] : Fin 2 → Nat) = fun _ => 0 := funext fun a => by fin_cases a <;> rfl

theorem lhs_dense_0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem lhs_dense_1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
theorem rhs_dense_0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
theorem rhs_dense_1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- One product into the zero accumulator, at row `p` and column `q`: the contraction over the 64 inner indices. -/
theorem dense_matmul_apply {φ₁ φ₂ : FTy} (a : FVec Ideal S10000x64 φ₁) (b : FVec Ideal S64x32 φ₂) (p : Fin 10000) (q : Fin 32) :
    matmul dot_S10000x64_S64x32_S10000x32_1_0_0_1_n_n none a b (constant (F := Ideal) S10000x32 .f32 0x00000000#32) (ix2 (n0 := 10000) (n1 := 32) p q)
      = ∑ k : Fin 64, a (ix2 (n0 := 10000) (n1 := 64) p k) * b (ix2 (n0 := 64) (n1 := 32) k q) := by
  simp only [matmul]
  rw [Ideal.matmul_constant_zero_apply, ← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx (ix2 (n0 := 10000) (n1 := 32) p q) ((ValueIdx.contrEquiv1 dot_S10000x64_S64x32_S10000x32_1_0_0_1_n_n 64 rfl rfl).symm k) = ix2 (n0 := 10000) (n1 := 64) p k := funext fun a => Fin.ext (by
    match a with
    | ⟨0, _⟩ => exact lhs_dense_0 _ _
    | ⟨1, _⟩ => exact (lhs_dense_1 _ _).trans hk)
  have er : dot_S10000x64_S64x32_S10000x32_1_0_0_1_n_n.rhsIdx (ix2 (n0 := 10000) (n1 := 32) p q) ((ValueIdx.contrEquiv1 dot_S10000x64_S64x32_S10000x32_1_0_0_1_n_n 64 rfl rfl).symm k) = ix2 (n0 := 64) (n1 := 32) k q := funext fun a => Fin.ext (by
    match a with
    | ⟨0, _⟩ => exact (rhs_dense_0 _ _).trans hk
    | ⟨1, _⟩ => exact rhs_dense_1 _ _)
  rw [el, er]

/-- The stored value at row `p`, column `q`. -/
theorem pay_apply (x0 x1 : Vec Ideal S10000x64 .f32) (x2 x3 : Vec Ideal S64x32 .f32) (x4 : Vec Ideal S1x32 .f32)
    (p : Fin 10000) (q : Fin 32) :
    k1_pay1 (F := Ideal) x0 x1 x2 x3 x4 (ix2 (n0 := 10000) (n1 := 32) p q)
      = ((∑ k : Fin 64, x0 (ix2 (n0 := 10000) (n1 := 64) p k) * x2 (ix2 (n0 := 64) (n1 := 32) k q))
          + (∑ k : Fin 64, x1 (ix2 (n0 := 10000) (n1 := 64) p k) * x3 (ix2 (n0 := 64) (n1 := 32) k q)))
        + x4 (ix2 (n0 := 1) (n1 := 32) 0 q) := by
  unfold k1_pay1
  rw [addf_apply, addf_apply, dense_matmul_apply, dense_matmul_apply]
  simp only [truncf_apply, shapeCast_self]
  rw [broadcastTo_apply x4 broadcasts_S1x32_S10000x32 (ix2 (n0 := 10000) (n1 := 32) p q) (ix2 (n0 := 1) (n1 := 32) 0 q) (fun a => by
    match a with
    | ⟨0, _⟩ => show (0 : Nat) = if (1 : Nat) = 1 then 0 else p.val; rw [if_pos rfl]
    | ⟨1, _⟩ => show q.val = if (32 : Nat) = 1 then 0 else q.val; rw [if_neg (by decide)])]

/-! ## From the blocks to the array

    Point `t` of the grid holds rows `10000·t … 10000·t + 9999` of the two node arrays and of the output, and the
    whole of both weight matrices and of the bias row. -/

/-- The index maps of the six windows over the grid: the row block follows the point, every other block index is zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- An entry of the block of rows of the first node array that point `t` holds is the array's entry `10000·t` rows further down. -/
theorem blk0_apply (c : Dev nD) (t : Fin cfg1.N) (x : S10000x64.Idx) (i : S100000x64.Idx)
    (h0 : (i 0).val = 10000 * t.val + (x 0).val) (h1 : (i 1).val = (x 1).val) :
    (iblk1 (F := Ideal) V c 0 t : Vec Ideal S10000x64 .f32) x = (V c main_v43 : S100000x64.Idx → EReal) i := by
  obtain ⟨e0, e1, -⟩ := idx_facts t
  unfold iblk1
  rw [View.read_apply]
  show V c main_v43 _ = V c main_v43 _
  refine congrArg (V c main_v43) (funext fun a => Fin.ext ?_)
  match a with
  | ⟨0, _⟩ => show win1_0.index t (0 : Fin 2) * 10000 + 1 * (x 0).val = (i 0).val; rw [e0, h0]; omega
  | ⟨1, _⟩ => show win1_0.index t (1 : Fin 2) * 64 + 1 * (x 1).val = (i 1).val; rw [e1, h1]; omega

/-- The same for the second node array. -/
theorem blk1_apply (c : Dev nD) (t : Fin cfg1.N) (x : S10000x64.Idx) (i : S100000x64.Idx)
    (h0 : (i 0).val = 10000 * t.val + (x 0).val) (h1 : (i 1).val = (x 1).val) :
    (iblk1 (F := Ideal) V c 1 t : Vec Ideal S10000x64 .f32) x = (V c main_v24 : S100000x64.Idx → EReal) i := by
  obtain ⟨-, -, e0, e1, -⟩ := idx_facts t
  unfold iblk1
  rw [View.read_apply]
  show V c main_v24 _ = V c main_v24 _
  refine congrArg (V c main_v24) (funext fun a => Fin.ext ?_)
  match a with
  | ⟨0, _⟩ => show win1_1.index t (0 : Fin 2) * 10000 + 1 * (x 0).val = (i 0).val; rw [e0, h0]; omega
  | ⟨1, _⟩ => show win1_1.index t (1 : Fin 2) * 64 + 1 * (x 1).val = (i 1).val; rw [e1, h1]; omega

/-- Every point holds the whole of the first weight matrix. -/
theorem blk2_apply (c : Dev nD) (t : Fin cfg1.N) (x : S64x32.Idx) (i : S64x32.Idx)
    (h0 : (i 0).val = (x 0).val) (h1 : (i 1).val = (x 1).val) :
    (iblk1 (F := Ideal) V c 2 t : Vec Ideal S64x32 .f32) x = (V c main_arg5 : S64x32.Idx → EReal) i := by
  obtain ⟨-, -, -, -, e0, e1, -⟩ := idx_facts t
  unfold iblk1
  rw [View.read_apply]
  show V c main_arg5 _ = V c main_arg5 _
  refine congrArg (V c main_arg5) (funext fun a => Fin.ext ?_)
  match a with
  | ⟨0, _⟩ => show win1_2.index t (0 : Fin 2) * 64 + 1 * (x 0).val = (i 0).val; rw [e0, h0]; omega
  | ⟨1, _⟩ => show win1_2.index t (1 : Fin 2) * 32 + 1 * (x 1).val = (i 1).val; rw [e1, h1]; omega

/-- Every point holds the whole of the second weight matrix. -/
theorem blk3_apply (c : Dev nD) (t : Fin cfg1.N) (x : S64x32.Idx) (i : S64x32.Idx)
    (h0 : (i 0).val = (x 0).val) (h1 : (i 1).val = (x 1).val) :
    (iblk1 (F := Ideal) V c 3 t : Vec Ideal S64x32 .f32) x = (V c main_arg6 : S64x32.Idx → EReal) i := by
  obtain ⟨-, -, -, -, -, -, e0, e1, -⟩ := idx_facts t
  unfold iblk1
  rw [View.read_apply]
  show V c main_arg6 _ = V c main_arg6 _
  refine congrArg (V c main_arg6) (funext fun a => Fin.ext ?_)
  match a with
  | ⟨0, _⟩ => show win1_3.index t (0 : Fin 2) * 64 + 1 * (x 0).val = (i 0).val; rw [e0, h0]; omega
  | ⟨1, _⟩ => show win1_3.index t (1 : Fin 2) * 32 + 1 * (x 1).val = (i 1).val; rw [e1, h1]; omega

/-- Every point holds the whole bias row. -/
theorem blk4_apply (c : Dev nD) (t : Fin cfg1.N) (x : S1x32.Idx) (i : S1x32.Idx)
    (h0 : (i 0).val = (x 0).val) (h1 : (i 1).val = (x 1).val) :
    (iblk1 (F := Ideal) V c 4 t : Vec Ideal S1x32 .f32) x = (V c main_v44 : S1x32.Idx → EReal) i := by
  obtain ⟨-, -, -, -, -, -, -, -, e0, e1, -⟩ := idx_facts t
  unfold iblk1
  rw [View.read_apply]
  show V c main_v44 _ = V c main_v44 _
  refine congrArg (V c main_v44) (funext fun a => Fin.ext ?_)
  match a with
  | ⟨0, _⟩ => show win1_4.index t (0 : Fin 2) * 1 + 1 * (x 0).val = (i 0).val; rw [e0, h0]; omega
  | ⟨1, _⟩ => show win1_4.index t (1 : Fin 2) * 32 + 1 * (x 1).val = (i 1).val; rw [e1, h1]; omega

/-- What point `t` writes back is block `t` of the output layer of the arrays as the region finds them. -/
theorem flushed_eq (c : Dev nD) (t : Fin cfg1.N) :
    (dat1 (F := Ideal) V c).flushed 5 t
      = ((cfg1.win 5).blk t).view.read (Elt Ideal)
          (Sage.output (V c main_v43) (V c main_v24) (V c main_arg5) (V c main_arg6)
            (fun j => (V c main_v44 : S1x32.Idx → EReal) (ix2 (n0 := 1) (n1 := 32) 0 j))) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x32) hz, View.ld_unit_zero (S := S1x32) hz]
  obtain ⟨e00, e01, e10, e11, e20, e21, e30, e31, e40, e41, e50, e51⟩ := idx_facts t
  funext j
  obtain ⟨p, q, rfl⟩ : ∃ (p : Fin 10000) (q : Fin 32), j = ix2 p q := ⟨j 0, j 1, eq_ix2 j⟩
  refine (pay_apply (iblk1 V c 0 t) (iblk1 V c 1 t) (iblk1 V c 2 t) (iblk1 V c 3 t) (iblk1 V c 4 t) p q).trans ?_
  rw [View.read_apply]
  generalize hi : ((View.whole main_v45).slice ((win1 5).rect t)).emb (ix2 (n0 := 10000) (n1 := 32) p q) = i
  have hi0 : (i 0).val = 10000 * t.val + p.val := by
    rw [← hi]; show win1_5.index t (0 : Fin 2) * 10000 + 1 * p.val = _; rw [e50]; omega
  have hi1 : (i 1).val = q.val := by
    rw [← hi]; show win1_5.index t (1 : Fin 2) * 32 + 1 * q.val = _; rw [e51]; omega
  have s0 : ∀ k : Fin 64, (iblk1 (F := Ideal) V c 0 t : Vec Ideal S10000x64 .f32) (ix2 (n0 := 10000) (n1 := 64) p k)
      = (V c main_v43 : S100000x64.Idx → EReal) (ix2 (n0 := 100000) (n1 := 64) (i 0) k) :=
    fun k => blk0_apply V c t _ _ hi0 rfl
  have s1 : ∀ k : Fin 64, (iblk1 (F := Ideal) V c 1 t : Vec Ideal S10000x64 .f32) (ix2 (n0 := 10000) (n1 := 64) p k)
      = (V c main_v24 : S100000x64.Idx → EReal) (ix2 (n0 := 100000) (n1 := 64) (i 0) k) :=
    fun k => blk1_apply V c t _ _ hi0 rfl
  have s2 : ∀ k : Fin 64, (iblk1 (F := Ideal) V c 2 t : Vec Ideal S64x32 .f32) (ix2 (n0 := 64) (n1 := 32) k q)
      = (V c main_arg5 : S64x32.Idx → EReal) (ix2 (n0 := 64) (n1 := 32) k (i 1)) :=
    fun k => blk2_apply V c t _ _ rfl hi1
  have s3 : ∀ k : Fin 64, (iblk1 (F := Ideal) V c 3 t : Vec Ideal S64x32 .f32) (ix2 (n0 := 64) (n1 := 32) k q)
      = (V c main_arg6 : S64x32.Idx → EReal) (ix2 (n0 := 64) (n1 := 32) k (i 1)) :=
    fun k => blk3_apply V c t _ _ rfl hi1
  have s4 : (iblk1 (F := Ideal) V c 4 t : Vec Ideal S1x32 .f32) (ix2 (n0 := 1) (n1 := 32) 0 q)
      = (V c main_v44 : S1x32.Idx → EReal) (ix2 (n0 := 1) (n1 := 32) 0 (i 1)) :=
    blk4_apply V c t _ _ rfl hi1
  simp only [s0, s1, s2, s3, s4]
  rfl

/-- An index of the output array lies in point `t`'s block iff each coordinate lies in the block's range on its axis. -/
theorem mem_blk (t : Fin cfg1.N) (i : S100000x32.Idx) :
    i ∈ ((cfg1.win 5).blk t).view.set ↔ ∀ a : Fin 2, win1_5.index t a * S10000x32.size a ≤ (i a).val
      ∧ (i a).val < win1_5.index t a * S10000x32.size a + S10000x32.size a := by
  show i ∈ ((View.whole main_v45).slice (win1_5.rect t)).set ↔ _
  rw [View.set_slice_whole, Rect.mem_set_unit]
  exact Iff.rfl

/-- The ten blocks of 10000 rows cover the 100000 rows: row `r` lies in the block of point `r / 10000`. -/
theorem cover (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  have hN : grid1.N = 10 := N_1
  obtain ⟨t, ht⟩ : ∃ t : Fin cfg1.N, t.val = (i 0).val / 10000 :=
    ⟨⟨(i 0).val / 10000, by show (i 0).val / 10000 < grid1.N; rw [hN]; omega⟩, rfl⟩
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 10000 ≤ (i 0).val ∧ (i 0).val < win1_5.index t (0 : Fin 2) * 10000 + 10000
    rw [e0, ht]; omega
  | ⟨1, _⟩ =>
    show win1_5.index t (1 : Fin 2) * 32 ≤ (i 1).val ∧ (i 1).val < win1_5.index t (1 : Fin 2) * 32 + 32
    rw [e1]; omega

theorem region1_value (c : Dev nD) :
    (dat1 (F := Ideal) V c).arrAt 5 cfg1.N
      = Sage.output (V c main_v43) (V c main_v24) (V c main_arg5) (V c main_arg6)
          (fun j => (V c main_v44 : S1x32.Idx → EReal) (ix2 (n0 := 1) (n1 := 32) 0 j)) := by
  exact (dat1 (F := Ideal) V c).arrAt_eq_of_cover 5 _ (fun t _ => flushed_eq V c t) cover

end Cert.KernelIdeal.Hand1

end
-- ==== Proof.RefLayers.lean ====
import proofs.«126133_j64725157151033_1_alg».proof.Proof.Gen.ReferenceIdeal.Read
import proofs.«126133_j64725157151033_1_alg».proof.Proof.Spec
import Idealize.ShloMosaic.Lib.ValueIdx
import Idealize.ShloMosaic.PureOps.Ideal.Laws

noncomputable section

open Idealize.ShloMosaic Idealize.ShloMosaic.TcCoe Idealize.SL.Sem

namespace Cert.ReferenceIdeal.Hand

open Cert.ReferenceIdeal Cert.ReferenceIdeal.Gen Cert.ReferenceIdeal.Read Idealize.ShloMosaic.ValueIdx

/-! The index functions of the two contractions and of the bias broadcast, identified with the coordinate
    constructors the specification is written in. -/

theorem lidx23_eq (i : S100000x64.Idx) (k : Fin 64) :
    lidx_main_v23 i k = ix2 (n0 := 100000) (n1 := 64) (i 0) k :=
  funext fun a => Fin.ext (by match a with | ⟨0, _⟩ => rfl | ⟨1, _⟩ => rfl)

theorem ridx23_eq (i : S100000x64.Idx) (k : Fin 64) :
    ridx_main_v23 i k = ix2 (n0 := 64) (n1 := 64) k (i 1) :=
  funext fun a => Fin.ext (by match a with | ⟨0, _⟩ => rfl | ⟨1, _⟩ => rfl)

theorem lidx24_eq (i : S100000x64.Idx) (k : Fin 64) :
    lidx_main_v24 i k = ix2 (n0 := 100000) (n1 := 64) (i 0) k :=
  funext fun a => Fin.ext (by match a with | ⟨0, _⟩ => rfl | ⟨1, _⟩ => rfl)

theorem ridx24_eq (i : S100000x64.Idx) (k : Fin 64) :
    ridx_main_v24 i k = ix2 (n0 := 64) (n1 := 64) k (i 1) :=
  funext fun a => Fin.ext (by match a with | ⟨0, _⟩ => rfl | ⟨1, _⟩ => rfl)

theorem bias64_eq (i : S100000x64.Idx) :
    idx_main_v26 (idx_main_v27 i) = ix1 (n := 64) (i 1) :=
  funext fun a => Fin.ext (by match a with | ⟨0, _⟩ => rfl)

theorem hidden_eq (x0 : (⟨S100000x64, .f32⟩ : BufTy).Contents (Elt Ideal)) (x1 : (⟨S2x1600000, .i32⟩ : BufTy).Contents (Elt Ideal))
    (x2 x3 : (⟨S64x64, .f32⟩ : BufTy).Contents (Elt Ideal)) (x4 : (⟨S64, .f32⟩ : BufTy).Contents (Elt Ideal)) :
    val_main_v29 (F := Ideal) x0 x1 x2 x3 x4
      = Sage.hidden (val_main_v22 (F := Ideal) x0 x1) x0 x2 x3 (fun j => (x4 : S64.Idx → EReal) (ix1 (n := 64) j)) := by
  funext i
  rw [val_main_v29_apply, val_main_v28_apply, val_main_v25_apply, val_main_v23_apply, val_main_v24_apply,
    val_main_v27_apply, val_main_v26_apply, val_main_call0_v0_apply, val_main_call0_cst_apply]
  simp only [lidx23_eq, ridx23_eq, lidx24_eq, ridx24_eq, bias64_eq, Sage.hidden, Ideal.addf_def, Ideal.maximumf_def,
    Ideal.ofBits_def, Ideal.ofBits_zero_f32]

theorem lidx53_eq (i : S100000x32.Idx) (k : Fin 64) :
    lidx_main_v53 i k = ix2 (n0 := 100000) (n1 := 64) (i 0) k :=
  funext fun a => Fin.ext (by match a with | ⟨0, _⟩ => rfl | ⟨1, _⟩ => rfl)

theorem ridx53_eq (i : S100000x32.Idx) (k : Fin 64) :
    ridx_main_v53 i k = ix2 (n0 := 64) (n1 := 32) k (i 1) :=
  funext fun a => Fin.ext (by match a with | ⟨0, _⟩ => rfl | ⟨1, _⟩ => rfl)

theorem lidx54_eq (i : S100000x32.Idx) (k : Fin 64) :
    lidx_main_v54 i k = ix2 (n0 := 100000) (n1 := 64) (i 0) k :=
  funext fun a => Fin.ext (by match a with | ⟨0, _⟩ => rfl | ⟨1, _⟩ => rfl)

theorem ridx54_eq (i : S100000x32.Idx) (k : Fin 64) :
    ridx_main_v54 i k = ix2 (n0 := 64) (n1 := 32) k (i 1) :=
  funext fun a => Fin.ext (by match a with | ⟨0, _⟩ => rfl | ⟨1, _⟩ => rfl)

theorem bias32_eq (i : S100000x32.Idx) :
    idx_main_v56 (idx_main_v57 i) = ix1 (n := 32) (i 1) :=
  funext fun a => Fin.ext (by match a with | ⟨0, _⟩ => rfl)

theorem output_eq (x0 : (⟨S100000x64, .f32⟩ : BufTy).Contents (Elt Ideal)) (x1 : (⟨S2x1600000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x32, .f32⟩ : BufTy).Contents (Elt Ideal)) (x7 : (⟨S32, .f32⟩ : BufTy).Contents (Elt Ideal)) :
    val_main_v58 (F := Ideal) x0 x1 x2 x3 x4 x5 x6 x7
      = Sage.output (val_main_v52 (F := Ideal) x0 x1 x2 x3 x4) (val_main_v29 (F := Ideal) x0 x1 x2 x3 x4) x5 x6
          (fun j => (x7 : S32.Idx → EReal) (ix1 (n := 32) j)) := by
  funext i
  rw [val_main_v58_apply, val_main_v55_apply, val_main_v53_apply, val_main_v54_apply, val_main_v57_apply,
    val_main_v56_apply]
  simp only [lidx53_eq, ridx53_eq, lidx54_eq, ridx54_eq, bias32_eq, Sage.output, Ideal.addf_def]

end Cert.ReferenceIdeal.Hand

end
-- ==== Proof.KernelValue.lean ====
/-
  The kernel program's result array is the reference's result, as one function of the arguments.

  The first region leaves in its output array the hidden layer of the first mean aggregation and `x`; the host
  stretch between the regions aggregates those hidden features; the second region leaves the output layer of that
  aggregation and the hidden features. Each step is the reference's own stage of the same arguments, so the chain
  closes by congruence in each operand, with no algebra on the extended reals beyond what the layers' lemmas hold.
-/
import proofs.«126133_j64725157151033_1_alg».proof.Proof.HostGlue
import proofs.«126133_j64725157151033_1_alg».proof.Proof.KernelBlocks
import proofs.«126133_j64725157151033_1_alg».proof.Proof.KernelBlocks1
import proofs.«126133_j64725157151033_1_alg».proof.Proof.RefLayers

set_option maxRecDepth 16384

noncomputable section

open Idealize.ShloMosaic Idealize.ShloMosaic.TcCoe Idealize.SL.Sem Idealize.ShloMosaic.StableHlo

namespace Cert.Glue

/-- The layers respect equality of each operand. -/
theorem hidden_congr {M M' X X' : Sage.N64.Idx → EReal} {Wn Wn' Ws Ws' : Sage.W64.Idx → EReal} {b b' : Fin 64 → EReal}
    (hM : M = M') (hX : X = X') (hWn : Wn = Wn') (hWs : Ws = Ws') (hb : b = b') :
    Sage.hidden M X Wn Ws b = Sage.hidden M' X' Wn' Ws' b' := by
  subst hM hX hWn hWs hb; rfl

theorem output_congr {M M' X X' : Sage.N64.Idx → EReal} {Wn Wn' Ws Ws' : Sage.W32.Idx → EReal} {b b' : Fin 32 → EReal}
    (hM : M = M') (hX : X = X') (hWn : Wn = Wn') (hWs : Ws = Ws') (hb : b = b') :
    Sage.output M X Wn Ws b = Sage.output M' X' Wn' Ws' b' := by
  subst hM hX hWn hWs hb; rfl

open Cert.KernelIdeal Cert.KernelIdeal.Gen

variable (m : (ℓ : Loc nD τ sig) → Buf (Elt Ideal) ℓ) (ρ : Dev nD → PrngReg)

/-- The first region's output array ends holding the reference's hidden features of the arguments. -/
theorem hidden_value (c : Dev nD) :
    W2 m ρ c (Proc.devRef .tc main_v24)
      = Cert.ReferenceIdeal.Read.val_main_v29 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  refine (W2_arr m ρ c 5).trans ?_
  rw [Cert.KernelIdeal.Hand.region0_value (V1 m ρ) c, Cert.ReferenceIdeal.Hand.hidden_eq]
  exact hidden_congr (entry0_mean m ρ c) (entry0_arg0 m ρ c) (entry0_arg2 m ρ c) (entry0_arg3 m ρ c)
    (funext fun j => (congrFun (entry0_bias m ρ c) _).trans (row_of_reshape _ _ j))

/-- The second region's output array, the program's result, ends holding the reference's result of the arguments. -/
theorem result_value (c : Dev nD) :
    W4 m ρ c (Proc.devRef .tc main_v45)
      = Cert.ReferenceIdeal.Read.val_main_v58 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  refine (W4_arr m ρ c 5).trans ?_
  rw [Cert.KernelIdeal.Hand1.region1_value (V3 m ρ) c, Cert.ReferenceIdeal.Hand.output_eq, val_main_v52_eq]
  exact output_congr ((entry1_mean m ρ c).trans (congrArg (fun h => mean2 (F := Ideal) h _) (hidden_value m ρ c)))
    ((entry1_hidden m ρ c).trans (hidden_value m ρ c)) (entry1_arg5 m ρ c) (entry1_arg6 m ρ c)
    (funext fun j => (congrFun (entry1_bias m ρ c) _).trans (row_of_reshape _ _ j))

end Cert.Glue

end
-- ==== Proof.lean ====
/-
  A two-layer GraphSAGE forward pass: each layer takes the mean, over the edge list, of the neighbours' features
  (a gather of the source rows, a scatter-add onto the destination rows, a division by the in-degree clamped at one)
  and maps `mean · W_n + x · W_s + b`, the first layer followed by a clamp at zero.

  The kernel program does the aggregation on the host, exactly as the reference does, and each dense layer in a
  pipelined kernel over ten blocks of 10000 rows: two matrix products of bf16-truncated operands into zero f32
  accumulators, their sum, the bias row broadcast over the block, and (first layer) the maximum with zero. Over the
  extended reals a truncation is the identity and a matrix product is the plain sum over the contracted index, and
  a row of the result depends only on the same row of the operands, so block `t` of each kernel's output is rows
  `10000 t … 10000 t + 9999` of the layer applied to the whole arrays. Both programs therefore end with the same
  function of the arguments: the grouping `(mean · W_n + x · W_s) + b` is the same on both sides, no law beyond
  reindexing the sums is used, and the precondition (finite inputs) is never opened.

  The three frames: the two kernel programs' are the generated frame certificates; the reference's is its run.
  The idealization rewrote nothing, so `preserves` is trivial.
-/
import proofs.«126133_j64725157151033_1_alg».proof.Defs
import proofs.«126133_j64725157151033_1_alg».proof.Proof.Gen.Kernel
import proofs.«126133_j64725157151033_1_alg».proof.Proof.Gen.Kernel.Frame
import proofs.«126133_j64725157151033_1_alg».proof.Proof.Gen.KernelIdeal
import proofs.«126133_j64725157151033_1_alg».proof.Proof.Gen.KernelIdeal.Frame
import proofs.«126133_j64725157151033_1_alg».proof.Proof.Gen.ReferenceIdeal
import proofs.«126133_j64725157151033_1_alg».proof.Proof.Gen.ReferenceIdeal.Run
import proofs.«126133_j64725157151033_1_alg».proof.Proof.Gen.ReferenceIdeal.Read
import proofs.«126133_j64725157151033_1_alg».proof.Proof.Gen.Pre_finite_inputs
import proofs.«126133_j64725157151033_1_alg».proof.Proof.KernelRun
import proofs.«126133_j64725157151033_1_alg».proof.Proof.KernelValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's result stage of the (agreeing) arguments. -/
theorem algebraic : Cert.algebraic_KernelIdeal_ReferenceIdeal := by
  intro m ρ m' ρ' _ hagree
  refine ⟨fun c => Cert.ReferenceIdeal.Read.val_main_v58 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Glue.result_value m ρ c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v58_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
